-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S1x512x100 : Shape := ⟨3, ![1, 512, 100]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S1x512x100 : S_.BroadcastsInDim S1x512x100 (![] : Fin 0 → Fin S1x512x100.rank)
  reducesTo_S1x512x100_S_d0_1_2 : S1x512x100.ReducesTo [0, 1, 2] S_

variable [Facts]

def fn {F : FTy → Type} [FloatOps F] (main_arg0 : FVec F S4096x512 .f32) (main_arg1 : FVec F S1x512x100 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S1x512x100 .f32 := Host.absf main_arg1
  let main_cst_0 : FVec F S_ .f32 := constant S_ .f32 0x7F800000#32
  let main_v5 : FVec F S1x512x100 .f32 := broadcastInDim S1x512x100 ![] bcast_S_S1x512x100 main_cst_0
  let main_v6 : IVec S1x512x100 1 := cmpf .olt main_v4 main_v5
  let main_c_1 : IVec S_ 1 := constantI S_ 1 1#1
  let main_v7 : IVec S_ 1 := (fun x v => Host.reduce IntOp.andi x v reducesTo_S1x512x100_S_d0_1_2 h_S_) main_v6 main_c_1
  let main_v8 : IVec S_ 1 := andi main_v3 main_v7
  main_v8
-- ==== Kernel.lean ====
abbrev S4096x512 : Shape := ⟨2, ![4096, 512]⟩
abbrev S1x512x100 : Shape := ⟨3, ![1, 512, 100]⟩
abbrev S512x100 : Shape := ⟨2, ![512, 100]⟩
abbrev S_ : Shape := ⟨0, ![]⟩
abbrev S100 : Shape := ⟨1, ![100]⟩
abbrev S1x100 : Shape := ⟨2, ![1, 100]⟩
abbrev S4096x100 : Shape := ⟨2, ![4096, 100]⟩
abbrev S256x512 : Shape := ⟨2, ![256, 512]⟩
abbrev S256x100 : Shape := ⟨2, ![256, 100]⟩
abbrev S256 : Shape := ⟨1, ![256]⟩
abbrev S256x1 : Shape := ⟨2, ![256, 1]⟩
abbrev S256x128 : Shape := ⟨2, ![256, 128]⟩
abbrev S128x100 : Shape := ⟨2, ![128, 100]⟩
abbrev S256x128x1 : Shape := ⟨3, ![256, 128, 1]⟩
abbrev S1x128x100 : Shape := ⟨3, ![1, 128, 100]⟩
abbrev S256x128x100 : Shape := ⟨3, ![256, 128, 100]⟩

abbrev nBuf : Space → Nat
  | .hbm => 9
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S1x512x100, .f32⟩
  | .hbm, ⟨2, _⟩ => ⟨S512x100, .f32⟩
  | .hbm, ⟨3, _⟩ => ⟨S512x100, .f32⟩
  | .hbm, ⟨4, _⟩ => ⟨S_, .f32⟩
  | .hbm, ⟨5, _⟩ => ⟨S100, .f32⟩
  | .hbm, ⟨6, _⟩ => ⟨S1x100, .f32⟩
  | .hbm, ⟨7, _⟩ => ⟨S1x100, .f32⟩
  | .hbm, ⟨8, _⟩ => ⟨S4096x100, .f32⟩
  | .local _ .vmem, ⟨0, _⟩ => ⟨S256x512, .f32⟩
  | .local _ .vmem, ⟨1, _⟩ => ⟨S256x512, .f32⟩
  | .local _ .vmem, ⟨2, _⟩ => ⟨S512x100, .f32⟩
  | .local _ .vmem, ⟨3, _⟩ => ⟨S1x100, .f32⟩
  | .local _ .vmem, ⟨4, _⟩ => ⟨S256x100, .f32⟩
  | .local _ .vmem, ⟨5, _⟩ => ⟨S256x100, .f32⟩
  | .local _ .vmem, ⟨6, _⟩ => ⟨S256x100, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x512x100_S512x100 : S1x512x100.ShapeCasts S512x100
  reducesTo_S512x100_S100_d0 : S512x100.ReducesTo [0] S100
  h_S_ : 0 < S_.numel
  bcast_S100_S1x100_1 : S100.BroadcastsInDim S1x100 (![1] : Fin 1 → Fin S1x100.rank)
  inb_S256x512_S256x512_0_0 : ∀ a, (![0, 0] : Fin 2 → Nat) a + S256x512.size a ≤ S256x512.size a
  h_S256x512 : 0 < S256x512.numel
  inb_S512x100_S512x100_0_0 : ∀ a, (![0, 0] : Fin 2 → Nat) a + S512x100.size a ≤ S512x100.size a
  h_S512x100 : 0 < S512x100.numel
  shapeCasts_S512x100_S512x100 : S512x100.ShapeCasts S512x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  bitsLt_bf16_f32 : FTy.bits .bf16 < FTy.bits .f32
  reduces_S256x512_S256 : S256x512.Reduces [1] S256
  shapeCasts_S256_S256x1 : S256.ShapeCasts S256x1
  broadcasts_S256x1_S256x100 : S256x1.Broadcasts S256x100
  broadcasts_S1x100_S256x100 : S1x100.Broadcasts S256x100
  reduces_S256x100_S256 : S256x100.Reduces [1] S256
  inb_S256x100_S256x100_0_0 : ∀ a, (![0, 0] : Fin 2 → Nat) a + S256x100.size a ≤ S256x100.size a
  h_S256x100 : 0 < S256x100.numel
  shapeCasts_S256x100_S256x100 : S256x100.ShapeCasts S256x100
  slices_S256x512_o0_0_S256x128 : S256x512.Slices ![0, 0] S256x128
  slices_S512x100_o0_0_S128x100 : S512x100.Slices ![0, 0] S128x100
  shapeCasts_S256x128_S256x128x1 : S256x128.ShapeCasts S256x128x1
  shapeCasts_S128x100_S1x128x100 : S128x100.ShapeCasts S1x128x100
  broadcasts_S256x128x1_S256x128x100 : S256x128x1.Broadcasts S256x128x100
  broadcasts_S1x128x100_S256x128x100 : S1x128x100.Broadcasts S256x128x100
  reduces_S256x128x100_S256x100 : S256x128x100.Reduces [1] S256x100
  slices_S256x512_o0_128_S256x128 : S256x512.Slices ![0, 128] S256x128
  slices_S512x100_o128_0_S128x100 : S512x100.Slices ![128, 0] S128x100
  slices_S256x512_o0_256_S256x128 : S256x512.Slices ![0, 256] S256x128
  slices_S512x100_o256_0_S128x100 : S512x100.Slices ![256, 0] S128x100
  slices_S256x512_o0_384_S256x128 : S256x512.Slices ![0, 384] S256x128
  slices_S512x100_o384_0_S128x100 : S512x100.Slices ![384, 0] S128x100
  dot_S256x512_S512x100_S256x100_1_0_0_1_n_n_wf : DotDims.WF S256x512 S512x100 S256x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x512.size a
  hwx0_0 : ∀ i : grid0.Coords, EltTy.bits .f32 = 32 ∨ (Rect.block (s := S4096x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x100.size a ≤ S512x100.size a
  hwx0_1 : ∀ i : grid0.Coords, EltTy.bits .f32 = 32 ∨ (Rect.block (s := S512x100) S512x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x100.size a ≤ S4096x100.size a
  hwx0_3 : ∀ i : grid0.Coords, EltTy.bits .f32 = 32 ∨ (Rect.block (s := S4096x100) S256x100.size (cc0_transform_3 i) (hinb0_3 i)).WholeWords (EltTy.packing .f32)

variable [Facts₀]

def dot_S256x512_S512x100_S256x100_1_0_0_1_n_n : DotDims S256x512 S512x100 S256x100 where
  lhsContracting := [1]
  rhsContracting := [0]
  lhsNonContracting := [0]
  rhsNonContracting := [1]
  lhsBatch := []
  rhsBatch := []
  wf := dot_S256x512_S512x100_S256x100_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x100.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x512 : Shape := ⟨2, ![4096, 512]⟩
abbrev S1x512x100 : Shape := ⟨3, ![1, 512, 100]⟩
abbrev S4096x512x1 : Shape := ⟨3, ![4096, 512, 1]⟩
abbrev S4096x512x100 : Shape := ⟨3, ![4096, 512, 100]⟩
abbrev S_ : Shape := ⟨0, ![]⟩
abbrev S4096x100 : Shape := ⟨2, ![4096, 100]⟩
abbrev S4096 : Shape := ⟨1, ![4096]⟩
abbrev S4096x1 : Shape := ⟨2, ![4096, 1]⟩
abbrev S512x100 : Shape := ⟨2, ![512, 100]⟩
abbrev S100 : Shape := ⟨1, ![100]⟩
abbrev S1x100 : Shape := ⟨2, ![1, 100]⟩

abbrev nBuf : Space → Nat
  | .hbm => 63
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1x512x100, .f32⟩
  | .hbm, ⟨2, _⟩ => ⟨S4096x512x1, .f32⟩
  | .hbm, ⟨3, _⟩ => ⟨S4096x512x100, .f32⟩
  | .hbm, ⟨4, _⟩ => ⟨S4096x512x100, .f32⟩
  | .hbm, ⟨5, _⟩ => ⟨S4096x512x100, .f32⟩
  | .hbm, ⟨6, _⟩ => ⟨S4096x512x100, .f32⟩
  | .hbm, ⟨7, _⟩ => ⟨S_, .f32⟩
  | .hbm, ⟨8, _⟩ => ⟨S4096x100, .f32⟩
  | .hbm, ⟨9, _⟩ => ⟨S4096x100, .f32⟩
  | .hbm, ⟨10, _⟩ => ⟨S_, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096x1, .f32⟩
  | .hbm, ⟨16, _⟩ => ⟨S4096x100, .f32⟩
  | .hbm, ⟨17, _⟩ => ⟨S4096x100, .f32⟩
  | .hbm, ⟨18, _⟩ => ⟨S4096x100, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S4096x100, .f32⟩
  | .hbm, ⟨23, _⟩ => ⟨S4096x100, .f32⟩
  | .hbm, ⟨24, _⟩ => ⟨S512x100, .f32⟩
  | .hbm, ⟨25, _⟩ => ⟨S4096x100, .f32⟩
  | .hbm, ⟨26, _⟩ => ⟨S4096x512, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S4096x1, .f32⟩
  | .hbm, ⟨31, _⟩ => ⟨S512x100, .f32⟩
  | .hbm, ⟨32, _⟩ => ⟨S_, .f32⟩
  | .hbm, ⟨33, _⟩ => ⟨S100, .f32⟩
  | .hbm, ⟨34, _⟩ => ⟨S1x100, .f32⟩
  | .hbm, ⟨35, _⟩ => ⟨S1x100, .f32⟩
  | .hbm, ⟨36, _⟩ => ⟨S4096x100, .f32⟩
  | .hbm, ⟨37, _⟩ => ⟨S4096x100, .f32⟩
  | .hbm, ⟨38, _⟩ => ⟨S4096x100, .f32⟩
  | .hbm, ⟨39, _⟩ => ⟨S_, .f32⟩
  | .hbm, ⟨40, _⟩ => ⟨S4096x100, .f32⟩
  | .hbm, ⟨41, _⟩ => ⟨S4096x100, .f32⟩
  | .hbm, ⟨42, _⟩ => ⟨S4096x100, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x1, .f32⟩
  | .hbm, ⟨52, _⟩ => ⟨S4096x100, .f32⟩
  | .hbm, ⟨53, _⟩ => ⟨S4096x100, .f32⟩
  | .hbm, ⟨54, _⟩ => ⟨S4096x100, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x100, .f32⟩
  | .hbm, ⟨59, _⟩ => ⟨S4096x100, .f32⟩
  | .hbm, ⟨60, _⟩ => ⟨S4096x100, .f32⟩
  | .hbm, ⟨61, _⟩ => ⟨S4096x100, .f32⟩
  | .hbm, ⟨62, _⟩ => ⟨S4096x100, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_6 : Ref sig .tc := ⟨.hbm, 43, rfl⟩
abbrev main_v34 : Ref sig .tc := ⟨.hbm, 44, rfl⟩
abbrev main_v35 : Ref sig .tc := ⟨.hbm, 45, rfl⟩
abbrev main_cst_7 : Ref sig .tc := ⟨.hbm, 46, rfl⟩
abbrev main_v36 : Ref sig .tc := ⟨.hbm, 47, rfl⟩
abbrev main_cst_8 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_9 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩

abbrev nD : Nat := 1
abbrev τ : Topo := Topo.v7x

variable {F : FTy → Type} [FloatOps F]

class Facts₀ : Prop where
  bcast_S4096x512_S4096x512x1_0_1 : S4096x512.BroadcastsInDim S4096x512x1 (![0, 1] : Fin 2 → Fin S4096x512x1.rank)
  bcast_S4096x512x1_S4096x512x100_0_1_2 : S4096x512x1.BroadcastsInDim S4096x512x100 (![0, 1, 2] : Fin 3 → Fin S4096x512x100.rank)
  bcast_S1x512x100_S4096x512x100_0_1_2 : S1x512x100.BroadcastsInDim S4096x512x100 (![0, 1, 2] : Fin 3 → Fin S4096x512x100.rank)
  reducesTo_S4096x512x100_S4096x100_d1 : S4096x512x100.ReducesTo [1] S4096x100
  h_S_ : 0 < S_.numel
  reducesTo_S4096x100_S4096_d1 : S4096x100.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x100_0_1 : S4096x1.BroadcastsInDim S4096x100 (![0, 1] : Fin 2 → Fin S4096x100.rank)
  shapeCasts_S1x512x100_S512x100 : S1x512x100.ShapeCasts S512x100
  reducesTo_S4096x512_S4096_d1 : S4096x512.ReducesTo [1] S4096
  reducesTo_S512x100_S100_d0 : S512x100.ReducesTo [0] S100
  bcast_S100_S1x100_1 : S100.BroadcastsInDim S1x100 (![1] : Fin 1 → Fin S1x100.rank)
  bcast_S1x100_S4096x100_0_1 : S1x100.BroadcastsInDim S4096x100 (![0, 1] : Fin 2 → Fin S4096x100.rank)
  bcast_S_S4096x100 : S_.BroadcastsInDim S4096x100 (![] : Fin 0 → Fin S4096x100.rank)
  dot_S4096x512_S512x100_S4096x100_1_0_0_1_n_n_wf : DotDims.WF S4096x512 S512x100 S4096x100 [1] [0] [0] [1] [] []

variable [Facts₀]

def dot_S4096x512_S512x100_S4096x100_1_0_0_1_n_n : DotDims S4096x512 S512x100 S4096x100 where
  lhsContracting := [1]
  rhsContracting := [0]
  lhsNonContracting := [0]
  rhsNonContracting := [1]
  lhsBatch := []
  rhsBatch := []
  wf := dot_S4096x512_S512x100_S4096x100_1_0_0_1_n_n_wf

class Facts : Prop extends Facts₀ where

variable [Facts]
-- ==== Proof.KernelTerm.lean ====
/-
  What one grid point of the kernel stores into its output block, as ONE pure function of the three blocks it
  loads: the samples' rows `x0`, the prototypes `x1` and the prototypes' column norms `x2`.

  The body first zeroes its accumulator, then adds to it, chunk by chunk over the 512 coordinates (four chunks
  of 128), the sums of `|x − g|`; each addition reads the accumulator the previous store left.  So the
  accumulator the last stage reads is the four-fold composition below, and the stored block is the product of
  the row maximum of the cosine similarities, their softmax, and the softmax of the negated accumulator.
-/
import proofs.«139967_j76836964926347_1_alg».proof.Proof.Gen.KernelIdeal.Skeleton

noncomputable section

namespace Cert.KernelIdeal.Body

open Cert.KernelIdeal Cert.KernelIdeal.Gen Idealize.ShloMosaic Idealize.SL.Sem

variable {F : FTy → Type} [FloatOps F]

/-- The L1 accumulator after the four chunk updates, starting from the zeroed accumulator. -/
def l1Acc (x0 : Vec F S256x512 .f32) (x1 : Vec F S512x100 .f32) : FVec F S256x100 .f32 :=
  k0_pay1 (k0_pay12 x0 (k0_pay3 x1))
    (k0_pay11 x0 (k0_pay3 x1)
      (k0_pay10 x0 (k0_pay3 x1)
        (k0_pay9 (k0_pay8 x0 x1) (k0_pay7 (F := F)))))

/-- The block a grid point stores: confidence · confusion · softmin of the L1 distances. -/
def blockVal (x0 : Vec F S256x512 .f32) (x1 : Vec F S512x100 .f32) (x2 : Vec F S1x100 .f32) : FVec F S256x100 .f32 :=
  k0_pay2 (k0_pay5 x0 x1 x2) (k0_pay6 x0 x1 x2) (l1Acc x0 x1)

end Cert.KernelIdeal.Body

end
-- ==== Proof.Piece.lean ====
/-
  What the body's run leaves in the output block is the block term.

  The run stores the output block once, whole, and its accumulator five times, whole each time (a zero fill and
  four updates); every load of the accumulator comes right after a whole store of it and so reads that store's
  value back, and every load of an input block reads the block.  Substituting the loads one after the other turns
  the one stored value into the composition `blockVal` of the loaded blocks.
-/
import proofs.«139967_j76836964926347_1_alg».proof.Proof.Gen.KernelIdeal.Frame
import proofs.«139967_j76836964926347_1_alg».proof.Proof.KernelTerm
import Idealize.ShloMosaic.Lib.Pipeline.Value

set_option maxRecDepth 16384

noncomputable section

namespace Cert.KernelIdeal.Body

open Cert.KernelIdeal Cert.KernelIdeal.Gen Idealize.ShloMosaic Idealize.ShloMosaic.TcCoe Idealize.ShloMosaic.Tactic Idealize.SL.Sem

variable {F : FTy → Type} [FloatOps F]

/-- The zero offsets of a whole rank-two access. -/
theorem zero_offsets2 : (![0, 0] : Fin 2 → ℕ) = fun _ => 0 := by
  funext a; fin_cases a <;> rfl

/-- On any staging memrefs and at any grid point, the output block after the body is `blockVal` of the three
    loaded blocks: it depends on no earlier contents of the output block nor of the accumulator. -/
theorem out_eq_blockVal (c : Dev nD) (i : grid0.Coords) (arg1 : Memref sig .tc .vmem S256x512 .f32) (harg1 : arg1.IsWhole) (arg2 : Memref sig .tc .vmem S512x100 .f32) (harg2 : arg2.IsWhole) (arg3 : Memref sig .tc .vmem S1x100 .f32) (harg3 : arg3.IsWhole) (arg4 : Memref sig .tc .vmem S256x100 .f32) (harg4 : arg4.IsWhole) (arg5 : Memref sig .tc .vmem S256x100 .f32) (harg5 : arg5.IsWhole)
    (x0 : Vec F S256x512 .f32) (x1 : Vec F S512x100 .f32) (x2 : Vec F S1x100 .f32) :
    out0_A_3 c i arg1 harg1 arg2 harg2 arg3 harg3 arg4 harg4 arg5 harg5 x0 x1 x2 = blockVal x0 x1 x2 := by
  unfold out0_A_3
  rw [View.read_writes_eq_canon _ _ _ (cover0_A_3 c i arg1 harg1 arg2 harg2 arg3 harg3 arg4 harg4 arg5 harg5 x0 x1 x2)]
  unfold kernelRun0_A
  dsimp only
  sl_unfold_words
  simp only [View.readAt_eq_ld, harg1.read_unread, harg2.read_unread, harg3.read_unread,
    View.ld_unit_zero (S := S256x512) zero_offsets2, View.ld_unit_zero (S := S512x100) zero_offsets2,
    View.ld_unit_zero (S := S1x100) zero_offsets2, View.readCov_cons_toLoadRect]
  exact View.canon_unit_zero (S := S256x100) zero_offsets2 _ _

end Cert.KernelIdeal.Body

end
-- ==== Proof.Spec.lean ====
/-
  The function both programs compute, row by row, on the extended reals.

  For a sample row `x : Fin 512 → EReal` and prototypes `g : Fin 512 → Fin 100 → EReal` the score of class `c` is

      (max_c cs) · softmax(cs)(c) · softmax(−ℓ¹)(c),

  where `cs c = (∑ₖ x k · g k c) / max (√(∑ₖ x k²) · ‖g · c‖) ε` is the clamped cosine similarity,
  `ℓ¹ c = ∑ₖ |x k − g k c|` the L1 distance, and a softmax subtracts the row maximum (guarded from below
  by −∞) before exponentiating.  Every row of the result depends on its own row of the samples only, so a
  row-blocked evaluation and a whole-array evaluation agree row by row; the only algebra needed between the
  two texts is that a sum over 512 coordinates is the sum of its four consecutive chunks of 128, and that
  `0 − a = −a`.
-/
import Idealize.ShloMosaic.PureOps.Ideal
import Idealize.ShloMosaic.PureOps.Ideal.Laws
import Idealize.ShloMosaic.Lib.ValueIdx

noncomputable section

namespace Cert.Codebook

open Idealize.ShloMosaic Idealize.ShloMosaic.ValueIdx
open scoped BigOperators

/-- The value of the word both programs start a maximum from (the pattern of −∞). -/
abbrev negInf : EReal := Ideal.ofBits .f32 0xFF800000#32

/-- The clamp under the cosine similarity's quotient: the same word in both programs, never evaluated. -/
abbrev eps : EReal := Ideal.ofBits .f32 0x322BCC77#32

/-- A row's maximum over the 100 classes, folded from −∞. -/
def rowMax (f : Fin 100 → EReal) : EReal := (Finset.univ : Finset (Fin 100)).fold max negInf f

/-- The softmax of a row: shift by the (guarded) row maximum, exponentiate, normalise by the row's sum. -/
def softmax (f : Fin 100 → EReal) (c : Fin 100) : EReal :=
  Ideal.div (Ideal.exp (f c - max negInf (rowMax f)))
    (∑ c' : Fin 100, Ideal.exp (f c' - max negInf (rowMax f)))

/-- The norm of prototype column `c`. -/
def colNorm (g : Fin 512 → Fin 100 → EReal) (c : Fin 100) : EReal :=
  Ideal.sqrt (∑ k : Fin 512, g k c * g k c)

/-- The clamped cosine similarity of a row against class `c`, the column norms `gn` given. -/
def cosSim (x : Fin 512 → EReal) (g : Fin 512 → Fin 100 → EReal) (gn : Fin 100 → EReal) (c : Fin 100) : EReal :=
  Ideal.div (∑ k : Fin 512, x k * g k c) (max (Ideal.sqrt (∑ k : Fin 512, x k * x k) * gn c) eps)

/-- One term of the L1 distance: `|a − b|` as the larger of the difference and its negation. -/
def absDiff (a b : EReal) : EReal := max (a - b) (-(a - b))

/-- The L1 distance of a row to class `c`. -/
def l1 (x : Fin 512 → EReal) (g : Fin 512 → Fin 100 → EReal) (c : Fin 100) : EReal :=
  ∑ k : Fin 512, absDiff (x k) (g k c)

/-- The score of class `c` for one row, the column norms given. -/
def score (x : Fin 512 → EReal) (g : Fin 512 → Fin 100 → EReal) (gn : Fin 100 → EReal) (c : Fin 100) : EReal :=
  rowMax (cosSim x g gn) * softmax (cosSim x g gn) c * softmax (fun c' => -(l1 x g c')) c

/-- The whole result: entry `(n, c)` is the score of class `c` for row `n` of the samples, the prototypes'
    one leading unit axis dropped. -/
def G (X : (⟨2, ![4096, 512]⟩ : Shape).Idx → EReal) (P : (⟨3, ![1, 512, 100]⟩ : Shape).Idx → EReal) :
    (⟨2, ![4096, 100]⟩ : Shape).Idx → EReal := fun i =>
  score (fun k => X (ix2 (i 0) k)) (fun k c => P (ix3 (0 : Fin 1) k c))
    (colNorm fun k c => P (ix3 (0 : Fin 1) k c)) (i 1)

/-! ## The two laws between the texts -/

/-- A chunk of 128 consecutive coordinates starting at `o`. -/
def chunk (o : ℕ) (ho : o + 128 ≤ 512) (f : Fin 512 → EReal) : EReal :=
  ∑ k : Fin 128, f ⟨o + k.val, by have := k.isLt; omega⟩

/-- A sum over 512 coordinates is the sum of its four consecutive chunks of 128, added left to right. -/
theorem sum_eq_chunks (f : Fin 512 → EReal) :
    ∑ k : Fin 512, f k
      = ((chunk 0 (by norm_num) f + chunk 128 (by norm_num) f) + chunk 256 (by norm_num) f)
          + chunk 384 (by norm_num) f := by
  -- through sums over ranges of naturals, where consecutive ranges concatenate
  let g : ℕ → EReal := fun k => if h : k < 512 then f ⟨k, h⟩ else 0
  have hg : ∀ (k : ℕ) (h : k < 512), g k = f ⟨k, h⟩ := fun k h => dif_pos h
  have whole : ∑ k : Fin 512, f k = ∑ k ∈ Finset.range 512, g k := by
    rw [← Fin.sum_univ_eq_sum_range g 512]
    exact Finset.sum_congr rfl fun k _ => (hg k.val k.isLt).symm
  have part : ∀ (o : ℕ) (ho : o + 128 ≤ 512), chunk o ho f = ∑ k ∈ Finset.range 128, g (o + k) := by
    intro o ho
    rw [← Fin.sum_univ_eq_sum_range (fun k => g (o + k)) 128]
    exact Finset.sum_congr rfl fun k _ => (hg (o + k.val) (by have := k.isLt; omega)).symm
  rw [whole, part 0, part 128, part 256, part 384,
    show (512 : ℕ) = 128 + 128 + 128 + 128 from rfl,
    Finset.sum_range_add, Finset.sum_range_add, Finset.sum_range_add]
  simp only [Nat.zero_add, Nat.add_assoc, Nat.reduceAdd]

/-- Subtracting from zero is negation, on every extended real. -/
theorem zero_sub_eq_neg (a : EReal) : (0 : EReal) - a = -a := by
  rw [sub_eq_add_neg, zero_add]

end Cert.Codebook

end
-- ==== Proof.Cosine.lean ====
/-
  The kernel's cosine-similarity stage read at an entry of the block.
-/
import proofs.«139967_j76836964926347_1_alg».proof.Proof.KernelTerm
import proofs.«139967_j76836964926347_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Idealize.SL.Sem
open scoped BigOperators

namespace Cosine

/-! ## The contraction: operand indices of the product at an output entry -/

theorem lhs_dot_0 (i : S256x100.Idx) (q : dot_S256x512_S512x100_S256x100_1_0_0_1_n_n.contr.Idx) :
    (dot_S256x512_S512x100_S256x100_1_0_0_1_n_n.lhsIdx i q 0).val = (i 0).val := by
  unfold DotDims.lhsIdx
  rw [dif_neg (show ¬(0 : Fin S256x512.rank) ∈ dot_S256x512_S512x100_S256x100_1_0_0_1_n_n.lhsBatch by decide),
    dif_pos (show (0 : Fin S256x512.rank) ∈ dot_S256x512_S512x100_S256x100_1_0_0_1_n_n.lhsNonContracting by decide)]
  rfl

theorem lhs_dot_1 (i : S256x100.Idx) (q : dot_S256x512_S512x100_S256x100_1_0_0_1_n_n.contr.Idx) :
    (dot_S256x512_S512x100_S256x100_1_0_0_1_n_n.lhsIdx i q 1).val = (q ⟨0, by decide⟩).val :=
  dot_S256x512_S512x100_S256x100_1_0_0_1_n_n.lhsIdx_val_of_single rfl i q

theorem rhs_dot_0 (i : S256x100.Idx) (q : dot_S256x512_S512x100_S256x100_1_0_0_1_n_n.contr.Idx) :
    (dot_S256x512_S512x100_S256x100_1_0_0_1_n_n.rhsIdx i q 0).val = (q ⟨0, by decide⟩).val :=
  dot_S256x512_S512x100_S256x100_1_0_0_1_n_n.rhsIdx_val_of_single rfl i q

theorem rhs_dot_1 (i : S256x100.Idx) (q : dot_S256x512_S512x100_S256x100_1_0_0_1_n_n.contr.Idx) :
    (dot_S256x512_S512x100_S256x100_1_0_0_1_n_n.rhsIdx i q 1).val = (i 1).val := by
  unfold DotDims.rhsIdx
  rw [dif_neg (show ¬(1 : Fin S512x100.rank) ∈ dot_S256x512_S512x100_S256x100_1_0_0_1_n_n.rhsBatch by decide),
    dif_pos (show (1 : Fin S512x100.rank) ∈ dot_S256x512_S512x100_S256x100_1_0_0_1_n_n.rhsNonContracting by decide)]
  rfl

/-- The product of a `[256,512]` block and a `[512,100]` block, accumulated from zero, at entry `(r, c)`:
    the sum over the 512 contracted coordinates. -/
theorem matmul_zero_ix2 {φ₁ φ₂ : FTy} (a : FVec Ideal S256x512 φ₁) (b : FVec Ideal S512x100 φ₂) (r : Fin 256) (c : Fin 100) :
    matmul dot_S256x512_S512x100_S256x100_1_0_0_1_n_n none a b (constant (F := Ideal) S256x100 .f32 0x00000000#32) (ix2 r c)
      = ∑ k : Fin 512, a (ix2 r k) * b (ix2 k c) := by
  refine (Ideal.matmul_constant_zero_apply dot_S256x512_S512x100_S256x100_1_0_0_1_n_n none a b (ix2 r c)).trans ?_
  rw [← Equiv.sum_comp (ValueIdx.contrEquiv1 dot_S256x512_S512x100_S256x100_1_0_0_1_n_n 512 rfl rfl).symm]
  refine Finset.sum_congr rfl fun k _ => ?_
  have hk := ValueIdx.contrEquiv1_symm_val dot_S256x512_S512x100_S256x100_1_0_0_1_n_n 512 rfl rfl k
  have el : dot_S256x512_S512x100_S256x100_1_0_0_1_n_n.lhsIdx (ix2 r c)
      ((ValueIdx.contrEquiv1 dot_S256x512_S512x100_S256x100_1_0_0_1_n_n 512 rfl rfl).symm k) = ix2 r k :=
    funext fun ax => Fin.ext (by
      match ax with
      | ⟨0, _⟩ => exact lhs_dot_0 _ _
      | ⟨1, _⟩ => exact (lhs_dot_1 _ _).trans hk)
  have er : dot_S256x512_S512x100_S256x100_1_0_0_1_n_n.rhsIdx (ix2 r c)
      ((ValueIdx.contrEquiv1 dot_S256x512_S512x100_S256x100_1_0_0_1_n_n 512 rfl rfl).symm k) = ix2 k c :=
    funext fun ax => Fin.ext (by
      match ax with
      | ⟨0, _⟩ => exact (rhs_dot_0 _ _).trans hk
      | ⟨1, _⟩ => exact rhs_dot_1 _ _)
  rw [el, er]

/-! ## A row's sum, and the keepdims layout steps -/

/-- A sum over axis 1 of a `[256,512]` block from the zero word, at row `r`: the sum of the row's 512 entries. -/
theorem rowSum_ix1 (v : FVec Ideal S256x512 .f32) (hφ : FKind.Formats .f32)
    (hacc : (0x00000000#32 : BitVec FTy.f32.bits) = FKind.add.neutral .f32 hφ) (r : Fin 256) :
    multiReduction .add [1] S256 v 0x00000000#32 reduces_S256x512_S256 hφ hacc (ix1 r)
      = ∑ k : Fin 512, v (ix2 r k) := by
  refine (Ideal.multiReduction_add_single v 0x00000000#32 reduces_S256x512_S256 hφ hacc (ix1 r)).trans ?_
  refine Finset.sum_congr rfl fun k _ => congrArg v (funext fun ax => Fin.ext ?_)
  match ax with
  | ⟨0, _⟩ => rfl
  | ⟨1, _⟩ => rfl

/-- An `[a]` array cast to `[a, 1]` reads, at `(p, u)`, the operand at `p`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The samples' row norms, kept as a column and spread over the 100 classes: at `(r, c)` the square root of
    row `r`'s sum of squares. -/
theorem rowNorm_ix2 (x0 : FVec Ideal S256x512 .f32) (hφ : FKind.Formats .f32)
    (hacc : (0x00000000#32 : BitVec FTy.f32.bits) = FKind.add.neutral .f32 hφ) (r : Fin 256) (c : Fin 100) :
    broadcastTo S256x100
        (sqrt (shapeCast S256x1 (multiReduction .add [1] S256 (mulf x0 x0) 0x00000000#32 reduces_S256x512_S256 hφ hacc)
          shapeCasts_S256_S256x1))
        broadcasts_S256x1_S256x100 (ix2 r c)
      = Ideal.sqrt (∑ k : Fin 512, x0 (ix2 r k) * x0 (ix2 r k)) := by
  refine (broadcastTo_a1_ab_apply _ broadcasts_S256x1_S256x100 r c).trans ?_
  show Ideal.sqrt (shapeCast S256x1 _ shapeCasts_S256_S256x1 (ix2 r (0 : Fin 1))) = _
  refine congrArg Ideal.sqrt ?_
  refine (shapeCast_a_a1_apply _ shapeCasts_S256_S256x1 r (0 : Fin 1)).trans ?_
  exact rowSum_ix1 (mulf x0 x0) hφ hacc r

end Cosine

/-- Entry `(r, c)` of the similarity stage is the clamped cosine similarity of row `r` of the loaded samples
    against prototype column `c`, with the loaded column norms. -/
theorem cosSim_apply (x0 : Vec Ideal S256x512 .f32) (x1 : Vec Ideal S512x100 .f32) (x2 : Vec Ideal S1x100 .f32)
    (r : Fin 256) (c : Fin 100) :
    k0_pay4 (F := Ideal) x0 x1 x2 (ix2 r c)
      = Cert.Codebook.cosSim (fun k => x0 (ix2 r k)) (fun k c' => x1 (ix2 k c')) (fun c' => x2 (ix2 (0 : Fin 1) c')) c := by
  unfold k0_pay4 k0_pay3 Cert.Codebook.cosSim
  -- the two casts of a shape to itself are the identity
  have e1 : shapeCast S512x100 x1 shapeCasts_S512x100_S512x100 = x1 := shapeCast_self x1 _
  have e2 : shapeCast S1x100 x2 shapeCasts_S1x100_S1x100 = x2 := shapeCast_self x2 _
  -- quotient of the product by the clamped product of the norms, factor by factor
  refine congrArg₂ Ideal.div ?_ (congrArg₂ max (congrArg₂ (· * ·) ?_ ?_) rfl)
  · -- the narrowing of each block is the identity on extended reals
    refine (Cosine.matmul_zero_ix2 _ _ r c).trans ?_
    refine Finset.sum_congr rfl fun k _ => ?_
    show x0 (ix2 r k) * shapeCast S512x100 x1 shapeCasts_S512x100_S512x100 (ix2 k c) = _
    rw [e1]
  · exact Cosine.rowNorm_ix2 x0 _ _ r c
  · show broadcastTo S256x100 (shapeCast S1x100 x2 shapeCasts_S1x100_S1x100) broadcasts_S1x100_S256x100 (ix2 r c) = _
    rw [e2]
    exact broadcastTo_1b_ab_apply x2 broadcasts_S1x100_S256x100 r c

end Cert.KernelIdeal.Body

end
-- ==== Proof.Distance.lean ====
/-
  The kernel's L1 accumulator, after its four chunk updates, read at an entry of the block.
-/
import proofs.«139967_j76836964926347_1_alg».proof.Proof.KernelTerm
import proofs.«139967_j76836964926347_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Idealize.SL.Sem
open scoped BigOperators

/-! ## The text the four chunk updates share -/

/-- The differences of one chunk: a block of 128 sample columns against a block of 128 prototype rows, every
    sample entry paired with every class. -/
def diffOf (a : FVec Ideal S256x128 .f32) (b : FVec Ideal S128x100 .f32) : FVec Ideal S256x128x100 .f32 :=
  subf (broadcastTo S256x128x100 (shapeCast S256x128x1 a shapeCasts_S256x128_S256x128x1) broadcasts_S256x128x1_S256x128x100)
    (broadcastTo S256x128x100 (shapeCast S1x128x100 b shapeCasts_S128x100_S1x128x100) broadcasts_S1x128x100_S256x128x100)

/-- One update of the accumulator: the absolute differences summed over the chunk's 128 coordinates, added on. -/
def accStep (d : FVec Ideal S256x128x100 .f32) (acc : Vec Ideal S256x100 .f32) : FVec Ideal S256x100 .f32 :=
  shapeCast S256x100
    (addf acc (multiReduction .add [1] S256x100 (absf d) 0x00000000#32 reduces_S256x128x100_S256x100 (.inl rfl) rfl))
    shapeCasts_S256x100_S256x100

/-! ## The layout operations of a chunk, read at an entry -/

/-- A matrix given a trailing unit axis reads, at `(i, j, u)`, its entry `(i, j)`: the row-major position is unchanged. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- The sample block, broadcast along the classes, reads at `(r, k, c)` its entry `(r, k)`. -/
theorem bcastSamples_apply (a : FVec Ideal S256x128 .f32) (r : Fin 256) (k : Fin 128) (c : Fin 100) :
    broadcastTo S256x128x100 (shapeCast S256x128x1 a shapeCasts_S256x128_S256x128x1) broadcasts_S256x128x1_S256x128x100
      (ix3 r k c) = a (ix2 r k) :=
  (broadcastTo_apply _ broadcasts_S256x128x1_S256x128x100 (ix3 r k c) (ix3 r k (0 : Fin 1)) (fun ax => by
    match ax with
    | ⟨0, _⟩ => rfl
    | ⟨1, _⟩ => rfl
    | ⟨2, _⟩ => rfl)).trans (shapeCast_ab_ab1_apply a shapeCasts_S256x128_S256x128x1 r k 0)

/-- The prototype block, broadcast along the sample rows, reads at `(r, k, c)` its entry `(k, c)`. -/
theorem bcastProtos_apply (b : FVec Ideal S128x100 .f32) (r : Fin 256) (k : Fin 128) (c : Fin 100) :
    broadcastTo S256x128x100 (shapeCast S1x128x100 b shapeCasts_S128x100_S1x128x100) broadcasts_S1x128x100_S256x128x100
      (ix3 r k c) = b (ix2 k c) :=
  (broadcastTo_apply _ broadcasts_S1x128x100_S256x128x100 (ix3 r k c) (ix3 (0 : Fin 1) k c) (fun ax => by
    match ax with
    | ⟨0, _⟩ => rfl
    | ⟨1, _⟩ => rfl
    | ⟨2, _⟩ => rfl)).trans (shapeCast_ab_1ab_apply b shapeCasts_S128x100_S1x128x100 0 k c)

/-- An entry of a chunk's differences. -/
theorem diffOf_apply (a : FVec Ideal S256x128 .f32) (b : FVec Ideal S128x100 .f32) (r : Fin 256) (k : Fin 128) (c : Fin 100) :
    diffOf a b (ix3 r k c) = a (ix2 r k) - b (ix2 k c) := by
  show (broadcastTo S256x128x100 (shapeCast S256x128x1 a shapeCasts_S256x128_S256x128x1) broadcasts_S256x128x1_S256x128x100 (ix3 r k c) : EReal)
      - broadcastTo S256x128x100 (shapeCast S1x128x100 b shapeCasts_S128x100_S1x128x100) broadcasts_S1x128x100_S256x128x100 (ix3 r k c) = _
  rw [bcastSamples_apply, bcastProtos_apply]

/-- The sum over the middle axis of a `[256, 128, 100]` array, read at `(r, c)`. -/
theorem sumMid_apply (v : FVec Ideal S256x128x100 .f32) (hφ : FKind.Formats .f32)
    (hacc : (0x00000000#32 : BitVec 32) = FKind.add.neutral .f32 hφ) (r : Fin 256) (c : Fin 100) :
    multiReduction .add [1] S256x100 v 0x00000000#32 reduces_S256x128x100_S256x100 hφ hacc (ix2 r c)
      = ∑ k : Fin 128, v (ix3 r k c) :=
  (Ideal.multiReduction_add_single v _ reduces_S256x128x100_S256x100 hφ hacc (ix2 r c)).trans
    (Finset.sum_congr rfl fun k _ => congrArg v (funext fun ax => by
      match ax with
      | ⟨0, _⟩ => rfl
      | ⟨1, _⟩ => rfl
      | ⟨2, _⟩ => rfl))

/-- One update read at `(r, c)`: the accumulator's entry plus the chunk's sum of absolute differences. -/
theorem accStep_apply (d : FVec Ideal S256x128x100 .f32) (acc : Vec Ideal S256x100 .f32) (r : Fin 256) (c : Fin 100) :
    accStep d acc (ix2 r c) = acc (ix2 r c) + ∑ k : Fin 128, max (d (ix3 r k c)) (-(d (ix3 r k c))) := by
  unfold accStep
  rw [shapeCast_self]
  exact congrArg (fun z : EReal => (acc (ix2 r c) : EReal) + z) (sumMid_apply (absf d) (.inl rfl) rfl r c)

/-! ## The four chunk updates -/

/-- A chunk update, at any offset `o`: the sample columns `o … o + 127` against the prototype rows `o … o + 127`,
    added onto the accumulator, read at `(r, c)`. -/
theorem chunkStep_apply (o : ℕ) (ho : o + 128 ≤ 512) (x0 : Vec Ideal S256x512 .f32) (v2 : FVec Ideal S512x100 .f32)
    (h0 : S256x512.Slices ![0, o] S256x128) (h1 : S512x100.Slices ![o, 0] S128x100)
    (acc : Vec Ideal S256x100 .f32) (r : Fin 256) (c : Fin 100) :
    accStep (diffOf (extractStridedSlice S256x128 ![0, o] x0 h0) (extractStridedSlice S128x100 ![o, 0] v2 h1)) acc (ix2 r c)
      = acc (ix2 r c) + Cert.Codebook.chunk o ho (fun k => Cert.Codebook.absDiff (x0 (ix2 r k)) (v2 (ix2 k c))) := by
  rw [accStep_apply]
  refine congrArg (fun z : EReal => (acc (ix2 r c) : EReal) + z) (Finset.sum_congr rfl fun k _ => ?_)
  rw [diffOf_apply, slice2_axis1_eq, slice2_axis0_eq]
  rfl

theorem pay8_eq (x0 : Vec Ideal S256x512 .f32) (x1 : Vec Ideal S512x100 .f32) :
    k0_pay8 x0 x1 = diffOf (extractStridedSlice S256x128 ![0, 0] x0 slices_S256x512_o0_0_S256x128)
      (extractStridedSlice S128x100 ![0, 0] (k0_pay3 x1) slices_S512x100_o0_0_S128x100) := rfl

theorem pay9_eq (d : FVec Ideal S256x128x100 .f32) (acc : Vec Ideal S256x100 .f32) : k0_pay9 d acc = accStep d acc := rfl

theorem pay10_eq (x0 : Vec Ideal S256x512 .f32) (v2 : FVec Ideal S512x100 .f32) (acc : Vec Ideal S256x100 .f32) :
    k0_pay10 x0 v2 acc = accStep (diffOf (extractStridedSlice S256x128 ![0, 128] x0 slices_S256x512_o0_128_S256x128)
      (extractStridedSlice S128x100 ![128, 0] v2 slices_S512x100_o128_0_S128x100)) acc := rfl

theorem pay11_eq (x0 : Vec Ideal S256x512 .f32) (v2 : FVec Ideal S512x100 .f32) (acc : Vec Ideal S256x100 .f32) :
    k0_pay11 x0 v2 acc = accStep (diffOf (extractStridedSlice S256x128 ![0, 256] x0 slices_S256x512_o0_256_S256x128)
      (extractStridedSlice S128x100 ![256, 0] v2 slices_S512x100_o256_0_S128x100)) acc := rfl

theorem pay12_eq (x0 : Vec Ideal S256x512 .f32) (v2 : FVec Ideal S512x100 .f32) :
    k0_pay12 x0 v2 = diffOf (extractStridedSlice S256x128 ![0, 384] x0 slices_S256x512_o0_384_S256x128)
      (extractStridedSlice S128x100 ![384, 0] v2 slices_S512x100_o384_0_S128x100) := rfl

theorem pay1_eq (d : FVec Ideal S256x128x100 .f32) (acc : Vec Ideal S256x100 .f32) : k0_pay1 d acc = accStep d acc := rfl

/-- The accumulator starts from zero. -/
theorem pay7_apply (r : Fin 256) (c : Fin 100) : (k0_pay7 (F := Ideal)) (ix2 r c) = 0 := by
  unfold k0_pay7
  rw [shapeCast_self]
  exact Ideal.ofBits_zero_f32

/-- Entry `(r, c)` of the accumulator is the L1 distance of row `r` of the loaded samples to prototype column `c`. -/
theorem l1Acc_apply (x0 : Vec Ideal S256x512 .f32) (x1 : Vec Ideal S512x100 .f32) (r : Fin 256) (c : Fin 100) :
    l1Acc (F := Ideal) x0 x1 (ix2 r c)
      = Cert.Codebook.l1 (fun k => x0 (ix2 r k)) (fun k c' => x1 (ix2 k c')) c := by
  -- the prototypes pass through a cast of their shape to itself
  have hv2 : k0_pay3 x1 = x1 := shapeCast_self x1 _
  unfold l1Acc
  -- the four updates are the shared text at offsets 0, 128, 256, 384
  rw [pay1_eq, pay12_eq, pay11_eq, pay10_eq, pay9_eq, pay8_eq, hv2]
  rw [chunkStep_apply 384 (by norm_num), chunkStep_apply 256 (by norm_num), chunkStep_apply 128 (by norm_num),
    chunkStep_apply 0 (by norm_num), pay7_apply, zero_add]
  -- and four consecutive chunks of 128 make the sum over all 512 coordinates
  exact (Cert.Codebook.sum_eq_chunks _).symm

end Cert.KernelIdeal.Body

end
-- ==== Proof.BlockValue.lean ====
/-
  The block a grid point stores, read at an entry: the score of the specification for that row and class.
-/
import proofs.«139967_j76836964926347_1_alg».proof.Proof.KernelTerm
import proofs.«139967_j76836964926347_1_alg».proof.Proof.Spec
import proofs.«139967_j76836964926347_1_alg».proof.Proof.Cosine
import proofs.«139967_j76836964926347_1_alg».proof.Proof.Distance
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Idealize.SL.Sem
open scoped BigOperators

/-! ## A column kept as a unit axis, read at an entry -/

/-- A column of 256 entries cast to a 256 × 1 array reads, at `(r, 0)`, the column at `r`. -/
theorem shapeCast_col_apply {α : Type} (x : S256.Idx → α) (h : S256.ShapeCasts S256x1) (r : Fin 256) (z : Fin 1) :
    shapeCast S256x1 x h (ix2 r z) = x (ix1 r) := by
  refine shapeCast_apply x h (ix2 r z) (ix1 r) ?_
  rw [Shape.rowMajor_val_one, Shape.rowMajor_val_two]
  show r.val = r.val * 1 + z.val
  have := z.isLt
  omega

/-- A 256 × 1 array broadcast along its unit axis to 256 × 100 reads, at `(r, c)`, the operand at `(r, 0)`. -/
theorem broadcastTo_col_apply {α : Type} (x : S256x1.Idx → α) (h : S256x1.Broadcasts S256x100) (r : Fin 256) (c : Fin 100) :
    broadcastTo S256x100 x h (ix2 r c) = x (ix2 r (0 : Fin 1)) := by
  refine broadcastTo_apply x h (ix2 r c) (ix2 r (0 : Fin 1)) fun ax => ?_
  match ax with
  | ⟨0, _⟩ => rfl
  | ⟨1, _⟩ => rfl

/-- The two together: a column kept as a unit axis and broadcast back over the classes reads the column at the row. -/
theorem keptCol_apply {α : Type} (x : S256.Idx → α) (h : S256.ShapeCasts S256x1) (h' : S256x1.Broadcasts S256x100)
    (r : Fin 256) (c : Fin 100) :
    broadcastTo S256x100 (shapeCast S256x1 x h) h' (ix2 r c) = x (ix1 r) :=
  (broadcastTo_col_apply _ h' r c).trans (shapeCast_col_apply x h r 0)

/-! ## The row reductions read at a row -/

/-- The inserted index of a reduction over the classes: row `r` with class `k` put back. -/
theorem lift_row (h : S256x100.Reduces [1] S256) (r : Fin 256) (k : Fin 100) : h.lift (ix1 r) k = ix2 r k := by
  funext a
  match a with
  | ⟨0, _⟩ => rfl
  | ⟨1, _⟩ => rfl

/-- The maximum over the classes, folded from the word of −∞, is the specification's row maximum of that row. -/
theorem rowMaxK_apply (v : FVec Ideal S256x100 .f32) (h : S256x100.Reduces [1] S256) (hφ : FKind.Formats .f32)
    (hacc : (0xFF800000#32 : BitVec 32) = FKind.maximumf.neutral .f32 hφ) (r : Fin 256) :
    multiReduction .maximumf [1] S256 v 0xFF800000#32 h hφ hacc (ix1 r)
      = Cert.Codebook.rowMax (fun c' => v (ix2 r c')) := by
  refine (Ideal.multiReduction_maximumf_single v _ h hφ hacc (ix1 r)).trans ?_
  have e : (v ∘ h.lift (ix1 r)) = fun c' : Fin 100 => v (ix2 r c') :=
    funext fun k => congrArg v (lift_row h r k)
  exact congrArg (fun f => (Finset.univ : Finset (Fin 100)).fold max Cert.Codebook.negInf f) e

/-- The sum over the classes is the sum of the row's entries. -/
theorem rowSumK_apply (v : FVec Ideal S256x100 .f32) (h : S256x100.Reduces [1] S256) (hφ : FKind.Formats .f32)
    (hacc : (0x00000000#32 : BitVec 32) = FKind.add.neutral .f32 hφ) (r : Fin 256) :
    multiReduction .add [1] S256 v 0x00000000#32 h hφ hacc (ix1 r) = ∑ c' : Fin 100, v (ix2 r c') := by
  refine (Ideal.multiReduction_add_single v _ h hφ hacc (ix1 r)).trans ?_
  exact Finset.sum_congr rfl fun k _ => congrArg v (lift_row h r k)

/-! ## The kernel's softmax text, read at an entry -/

/-- The first half of the kernel's softmax over a 256 × 100 array: every entry less its row's maximum (the maximum
    guarded from below by −∞ and kept as a unit axis), exponentiated. -/
def shiftExpK (v : FVec Ideal S256x100 .f32) : FVec Ideal S256x100 .f32 :=
  exp (subf v
    (broadcastTo S256x100
      (shapeCast S256x1
        (maximumf (broadcast S256 (Scalar.ofBits .f32 0xFF800000#32))
          (multiReduction .maximumf [1] S256 v 0xFF800000#32 reduces_S256x100_S256 (.inl rfl) rfl))
        shapeCasts_S256_S256x1)
      broadcasts_S256x1_S256x100))

/-- The kernel's softmax over a 256 × 100 array: the shifted exponentials divided by their row sums (kept as a unit
    axis and broadcast back). -/
def softmaxK (v : FVec Ideal S256x100 .f32) : FVec Ideal S256x100 .f32 :=
  divf (shiftExpK v)
    (broadcastTo S256x100
      (shapeCast S256x1
        (multiReduction .add [1] S256 (shiftExpK v) 0x00000000#32 reduces_S256x100_S256 (.inl rfl) rfl)
        shapeCasts_S256_S256x1)
      broadcasts_S256x1_S256x100)

/-- A shifted exponential at `(r, c)`: the exponential of the entry less the guarded maximum of row `r`. -/
theorem shiftExpK_apply (v : FVec Ideal S256x100 .f32) (r : Fin 256) (c : Fin 100) :
    shiftExpK v (ix2 r c)
      = Ideal.exp (v (ix2 r c) - max Cert.Codebook.negInf (Cert.Codebook.rowMax fun c' => v (ix2 r c'))) := by
  have hB : broadcastTo S256x100
        (shapeCast S256x1
          (maximumf (broadcast S256 (Scalar.ofBits .f32 0xFF800000#32))
            (multiReduction .maximumf [1] S256 v 0xFF800000#32 reduces_S256x100_S256 (.inl rfl) rfl))
          shapeCasts_S256_S256x1)
        broadcasts_S256x1_S256x100 (ix2 r c)
      = max Cert.Codebook.negInf (Cert.Codebook.rowMax fun c' => v (ix2 r c')) :=
    (keptCol_apply _ shapeCasts_S256_S256x1 broadcasts_S256x1_S256x100 r c).trans
      (congrArg (max Cert.Codebook.negInf) (rowMaxK_apply v reduces_S256x100_S256 (.inl rfl) rfl r))
  exact congrArg (fun b => Ideal.exp (v (ix2 r c) - b)) hB

/-- The kernel's softmax at `(r, c)` is the specification's softmax of row `r` at class `c`. -/
theorem softmaxK_apply (v : FVec Ideal S256x100 .f32) (r : Fin 256) (c : Fin 100) :
    softmaxK v (ix2 r c) = Cert.Codebook.softmax (fun c' => v (ix2 r c')) c := by
  have hS : broadcastTo S256x100
        (shapeCast S256x1
          (multiReduction .add [1] S256 (shiftExpK v) 0x00000000#32 reduces_S256x100_S256 (.inl rfl) rfl)
          shapeCasts_S256_S256x1)
        broadcasts_S256x1_S256x100 (ix2 r c)
      = ∑ c' : Fin 100, Ideal.exp (v (ix2 r c') - max Cert.Codebook.negInf (Cert.Codebook.rowMax fun c'' => v (ix2 r c''))) :=
    (keptCol_apply _ shapeCasts_S256_S256x1 broadcasts_S256x1_S256x100 r c).trans
      ((rowSumK_apply (shiftExpK v) reduces_S256x100_S256 (.inl rfl) rfl r).trans
        (Finset.sum_congr rfl fun k _ => shiftExpK_apply v r k))
  exact congrArg₂ Ideal.div (shiftExpK_apply v r c) hS

/-! ## The payloads as these texts -/

/-- The kernel's confidence text over a 256 × 100 array: the row maxima, kept as a unit axis. -/
def confK (v : FVec Ideal S256x100 .f32) : FVec Ideal S256x1 .f32 :=
  shapeCast S256x1 (multiReduction .maximumf [1] S256 v 0xFF800000#32 reduces_S256x100_S256 (.inl rfl) rfl)
    shapeCasts_S256_S256x1

/-- The confidence at `(r, 0)` is the specification's row maximum of row `r`. -/
theorem confK_apply (v : FVec Ideal S256x100 .f32) (r : Fin 256) (z : Fin 1) :
    confK v (ix2 r z) = Cert.Codebook.rowMax (fun c' => v (ix2 r c')) :=
  (shapeCast_col_apply
      (multiReduction .maximumf [1] S256 v 0xFF800000#32 reduces_S256x100_S256 (.inl rfl) rfl)
      shapeCasts_S256_S256x1 r z).trans
    (rowMaxK_apply v reduces_S256x100_S256 (.inl rfl) rfl r)

/-- The kept confidence is the confidence text at the similarities. -/
theorem k0_pay5_eq (x0 : Vec Ideal S256x512 .f32) (x1 : Vec Ideal S512x100 .f32) (x2 : Vec Ideal S1x100 .f32) :
    k0_pay5 (F := Ideal) x0 x1 x2 = confK (k0_pay4 x0 x1 x2) := rfl

/-- The kept softmax of the similarities is the softmax text at the similarities. -/
theorem k0_pay6_eq (x0 : Vec Ideal S256x512 .f32) (x1 : Vec Ideal S512x100 .f32) (x2 : Vec Ideal S1x100 .f32) :
    k0_pay6 (F := Ideal) x0 x1 x2 = softmaxK (k0_pay4 x0 x1 x2) := rfl

/-- The stored product: the confidence broadcast over the classes, times the kept softmax, times the softmax text at
    zero less the accumulator. -/
theorem k0_pay2_eq (v19 : FVec Ideal S256x1 .f32) (v30 : FVec Ideal S256x100 .f32) (v91 : Vec Ideal S256x100 .f32) :
    k0_pay2 (F := Ideal) v19 v30 v91
      = mulf (mulf (broadcastTo S256x100 v19 broadcasts_S256x1_S256x100) v30)
          (softmaxK (subf (broadcast S256x100 (Scalar.ofBits .f32 0x00000000#32)) v91)) := rfl

/-- Zero less an accumulator entry is its negation. -/
theorem zeroSub_apply (v : FVec Ideal S256x100 .f32) (i : S256x100.Idx) :
    subf (broadcast S256x100 (Scalar.ofBits .f32 0x00000000#32)) v i = -(v i) := by
  show Ideal.ofBits .f32 0x00000000#32 - v i = -(v i)
  rw [Ideal.ofBits_zero_f32, Cert.Codebook.zero_sub_eq_neg]

/-- Entry `(r, c)` of the stored block is the specification's score of class `c` for row `r` of the loaded
    samples, with the loaded prototypes and column norms. -/
theorem blockVal_apply (x0 : Vec Ideal S256x512 .f32) (x1 : Vec Ideal S512x100 .f32) (x2 : Vec Ideal S1x100 .f32)
    (r : Fin 256) (c : Fin 100) :
    blockVal (F := Ideal) x0 x1 x2 (ix2 r c)
      = Cert.Codebook.score (fun k => x0 (ix2 r k)) (fun k c' => x1 (ix2 k c')) (fun c' => x2 (ix2 (0 : Fin 1) c')) c := by
  -- the row of similarities and the row of negated distances, as the specification names them
  have hcs : (fun c' => k0_pay4 (F := Ideal) x0 x1 x2 (ix2 r c'))
      = Cert.Codebook.cosSim (fun k => x0 (ix2 r k)) (fun k c' => x1 (ix2 k c')) (fun c' => x2 (ix2 (0 : Fin 1) c')) :=
    funext fun c' => cosSim_apply x0 x1 x2 r c'
  have hl1 : (fun c' => subf (broadcast S256x100 (Scalar.ofBits .f32 0x00000000#32)) (l1Acc (F := Ideal) x0 x1) (ix2 r c'))
      = fun c' => -(Cert.Codebook.l1 (fun k => x0 (ix2 r k)) (fun k c'' => x1 (ix2 k c'')) c') :=
    funext fun c' => (zeroSub_apply (l1Acc x0 x1) (ix2 r c')).trans (congrArg Neg.neg (l1Acc_apply x0 x1 r c'))
  -- the three factors
  have h1 : broadcastTo S256x100 (k0_pay5 (F := Ideal) x0 x1 x2) broadcasts_S256x1_S256x100 (ix2 r c)
      = Cert.Codebook.rowMax
          (Cert.Codebook.cosSim (fun k => x0 (ix2 r k)) (fun k c' => x1 (ix2 k c')) (fun c' => x2 (ix2 (0 : Fin 1) c'))) :=
    (broadcastTo_col_apply _ broadcasts_S256x1_S256x100 r c).trans
      ((congrFun (k0_pay5_eq x0 x1 x2) (ix2 r (0 : Fin 1))).trans
        ((confK_apply (k0_pay4 x0 x1 x2) r 0).trans (congrArg Cert.Codebook.rowMax hcs)))
  have h2 : k0_pay6 (F := Ideal) x0 x1 x2 (ix2 r c)
      = Cert.Codebook.softmax
          (Cert.Codebook.cosSim (fun k => x0 (ix2 r k)) (fun k c' => x1 (ix2 k c')) (fun c' => x2 (ix2 (0 : Fin 1) c'))) c :=
    (congrFun (k0_pay6_eq x0 x1 x2) (ix2 r c)).trans
      ((softmaxK_apply (k0_pay4 x0 x1 x2) r c).trans (congrArg (fun f => Cert.Codebook.softmax f c) hcs))
  have h3 : softmaxK (subf (broadcast S256x100 (Scalar.ofBits .f32 0x00000000#32)) (l1Acc (F := Ideal) x0 x1)) (ix2 r c)
      = Cert.Codebook.softmax (fun c' => -(Cert.Codebook.l1 (fun k => x0 (ix2 r k)) (fun k c'' => x1 (ix2 k c'')) c')) c :=
    (softmaxK_apply _ r c).trans (congrArg (fun f => Cert.Codebook.softmax f c) hl1)
  -- the stored block is their product
  refine (congrFun (k0_pay2_eq (k0_pay5 x0 x1 x2) (k0_pay6 x0 x1 x2) (l1Acc x0 x1)) (ix2 r c)).trans ?_
  exact congrArg₂ (· * ·) (congrArg₂ (· * ·) h1 h2) h3

end Cert.KernelIdeal.Body

end
-- ==== Proof.ArrayValue.lean ====
/-
  The kernel's result array after its run is the specification of the two arguments.

  Before the one launch the host drops the prototypes' unit axis and computes their column norms (a sum of
  squares down the 512 rows, then a square root); the launch's three input windows read the samples in blocks of
  256 rows and these two small arrays whole.  What grid point `t` stores is, entry by entry, the score of the
  specification for row `256 t + r` — the stored block is the block term of the loaded blocks (Piece), that term
  at an entry is the score of the loaded row (BlockValue), and the loaded blocks are the rows `256 t …` of the
  samples, the prototypes and their norms.  The sixteen output blocks tile the 4096 rows (row `n` lies in block
  `n / 256`), so the array ends holding the specification everywhere.
-/
import proofs.«139967_j76836964926347_1_alg».proof.Proof.Gen.KernelIdeal.Value
import proofs.«139967_j76836964926347_1_alg».proof.Proof.Piece
import proofs.«139967_j76836964926347_1_alg».proof.Proof.BlockValue
import proofs.«139967_j76836964926347_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.ArrayValue

open Cert.KernelIdeal Cert.KernelIdeal.Gen Cert.KernelIdeal.Value Cert.KernelIdeal.Body
open Idealize.ShloMosaic Idealize.ShloMosaic.TcCoe Idealize.ShloMosaic.ValueIdx Idealize.SL.Sem Idealize.ShloMosaic.StableHlo
open Idealize.ShloMosaic.Pipeline (Dat)
open scoped BigOperators

variable (m : (ℓ : Loc nD τ sig) → Buf (Elt Ideal) ℓ) (ρ : Dev nD → PrngReg)

/-- The prototypes as the launch finds them: the argument reshaped, its unit axis dropped. -/
theorem protos_entry (c : Dev nD) :
    (V m c main_v0 : S512x100.Idx → EReal)
      = shapeCast S512x100 (m ((c : Thread nD τ).loc main_arg1)) shapeCasts_S1x512x100_S512x100 := by
  dsimp only [Gen.V, Gen.hostOps0]; after_results; rfl

/-- The column norms as the launch finds them: the host's sum of squares down the rows, broadcast to one row, under
    the square root. -/
theorem norms_entry (c : Dev nD) :
    (V m c main_v4 : S1x100.Idx → EReal)
      = Host.sqrt (F := Ideal) (broadcastInDim S1x100 ![1] bcast_S100_S1x100_1
          (Host.reduceAdd (F := Ideal)
            (mulf (shapeCast S512x100 (m ((c : Thread nD τ).loc main_arg1)) shapeCasts_S1x512x100_S512x100)
                  (shapeCast S512x100 (m ((c : Thread nD τ).loc main_arg1)) shapeCasts_S1x512x100_S512x100))
            (constant (F := Ideal) S_ .f32 0x00000000#32) reducesTo_S512x100_S100_d0 h_S_)) := by
  dsimp only [Gen.V, Gen.hostOps0]; after_results; rfl

/-- The prototypes the region finds, at `(k, c)`: the argument at `(0, k, c)`. -/
theorem protos_at (c : Dev nD) (k : Fin 512) (cc : Fin 100) :
    (V m c main_v0 : S512x100.Idx → EReal) (ix2 k cc) = m ((c : Thread nD τ).loc main_arg1) (ix3 (0 : Fin 1) k cc) := by
  rw [protos_entry]
  exact shapeCast_1ab_ab_apply _ _ k cc

/-- The host's column norm (a sum of squares down the 512 rows, its square root) of the prototypes with their unit
    axis dropped, at `(0, c)`: the specification's column norm. -/
theorem colNorm_host (Pp : FVec Ideal S1x512x100 .f32) (cc : Fin 100) :
    Host.sqrt (F := Ideal) (broadcastInDim S1x100 ![1] bcast_S100_S1x100_1
        (Host.reduceAdd (F := Ideal)
          (mulf (shapeCast S512x100 Pp shapeCasts_S1x512x100_S512x100) (shapeCast S512x100 Pp shapeCasts_S1x512x100_S512x100))
          (constant (F := Ideal) S_ .f32 0x00000000#32) reducesTo_S512x100_S100_d0 h_S_)) (ix2 (0 : Fin 1) cc)
      = Cert.Codebook.colNorm (fun k c' => Pp (ix3 (0 : Fin 1) k c')) cc := by
  unfold Cert.Codebook.colNorm
  show Ideal.sqrt _ = Ideal.sqrt _
  refine congrArg Ideal.sqrt ?_
  refine (broadcastInDim_apply _ bcast_S100_S1x100_1 _ (ix2 (0 : Fin 1) cc) (ix1 cc) (fun a => match a with
    | ⟨0, _⟩ => by show cc.val = if (100 : Nat) = 1 then 0 else cc.val; rw [if_neg (by decide)])).trans ?_
  simp only [Host.reduceAdd, Ideal.hostReduceAdd_def]
  rw [Ideal.hostReduceAdd_single reducesTo_S512x100_S100_d0 (by decide)]
  show Ideal.ofBits .f32 0x00000000#32 + _ = _
  rw [Ideal.ofBits_zero_f32, zero_add]
  refine Finset.sum_congr rfl fun k _ => ?_
  have e : (Shape.Reduces.lift (by decide : S512x100.Reduces [0] S100) (ix1 cc) k) = ix2 k cc :=
    funext fun a => Fin.ext (by match a with | ⟨0, _⟩ => rfl | ⟨1, _⟩ => rfl)
  rw [e]
  exact congrArg₂ (· * ·)
    (shapeCast_1ab_ab_apply (a := 512) (b := 100) Pp shapeCasts_S1x512x100_S512x100 k cc)
    (shapeCast_1ab_ab_apply (a := 512) (b := 100) Pp shapeCasts_S1x512x100_S512x100 k cc)

/-- The column norms the region finds, at `(0, c)`: the specification's column norm of the prototypes. -/
theorem norms_at (c : Dev nD) (cc : Fin 100) :
    (V m c main_v4 : S1x100.Idx → EReal) (ix2 (0 : Fin 1) cc)
      = Cert.Codebook.colNorm (fun k c' => m ((c : Thread nD τ).loc main_arg1) (ix3 (0 : Fin 1) k c')) cc := by
  rw [norms_entry]
  exact colNorm_host _ cc

/-! ## One entry of one grid point -/

/-- If the three loaded blocks are: rows `256 q …` of the samples, the prototypes with the unit axis dropped, and
    their column norms, then entry `j` of the stored block is the specification at the array index `i` that block
    `q` puts `j` at. -/
theorem point_eq (X : (⟨2, ![4096, 512]⟩ : Shape).Idx → EReal) (Pp : (⟨3, ![1, 512, 100]⟩ : Shape).Idx → EReal)
    (x0 : Vec Ideal S256x512 .f32) (x1 : Vec Ideal S512x100 .f32) (x2 : Vec Ideal S1x100 .f32)
    (q : ℕ) (hq : q ≤ 15)
    (h0 : ∀ (r : Fin 256) (k : Fin 512), x0 (ix2 r k) = X (ix2 (⟨q * 256 + r.val, by have := r.isLt; omega⟩ : Fin 4096) k))
    (h1 : ∀ (k : Fin 512) (cc : Fin 100), x1 (ix2 k cc) = Pp (ix3 (0 : Fin 1) k cc))
    (h2 : ∀ cc : Fin 100, x2 (ix2 (0 : Fin 1) cc) = Cert.Codebook.colNorm (fun k c' => Pp (ix3 (0 : Fin 1) k c')) cc)
    (j : S256x100.Idx) (i : S4096x100.Idx) (hi0 : (i 0).val = q * 256 + (j 0).val) (hi1 : (i 1).val = (j 1).val) :
    blockVal (F := Ideal) x0 x1 x2 j = Cert.Codebook.G X Pp i := by
  obtain ⟨r, cc, rfl⟩ : ∃ (r : Fin 256) (cc : Fin 100), j = ix2 r cc := ⟨j 0, j 1, eq_ix2 j⟩
  have hb : q * 256 + r.val < 4096 := by have := r.isLt; omega
  obtain ⟨n, c2, rfl⟩ : ∃ (n : Fin 4096) (c2 : Fin 100), i = ix2 n c2 := ⟨i 0, i 1, eq_ix2 i⟩
  have en : n = (⟨q * 256 + r.val, hb⟩ : Fin 4096) := Fin.ext hi0
  have ec : c2 = cc := Fin.ext hi1
  subst en ec
  rw [blockVal_apply]
  show _ = Cert.Codebook.score (fun k => X (ix2 (⟨q * 256 + r.val, hb⟩ : Fin 4096) k)) (fun k c' => Pp (ix3 (0 : Fin 1) k c'))
    (Cert.Codebook.colNorm fun k c' => Pp (ix3 (0 : Fin 1) k c')) c2
  simp only [h0, h1, h2]

/-! ## From blocks to the array -/

/-- The printed index maps over the grid: the samples' block and the output's block move together down the rows,
    everything else stays at block zero, and the output's row-block index stays in range. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 15 :=
  (by decide +kernel : ∀ t : Fin grid0.N, _)

/-- Every row block of the output is some point's. -/
theorem idx_onto : ∀ q0 : Fin 16, ∃ t : Fin cfg0.N, win0_3.index t = ![q0.val, 0] :=
  (by decide +kernel : ∀ q0 : Fin 16, ∃ t : Fin grid0.N, win0_3.index t = ![q0.val, 0])

/-- What point `t` writes back is block `t` of the specification of the two arguments. -/
theorem flushed_eq (c : Dev nD) (t : Fin cfg0.N) :
    (dats m 0 c).flushed 3 t
      = ((cfg0.win 3).blk t).view.read (Elt Ideal)
          (Cert.Codebook.G (m ((c : Thread nD τ).loc main_arg0)) (m ((c : Thread nD τ).loc main_arg1))) := by
  rw [flushed3_A, out_eq_blockVal]
  obtain ⟨e0, e1, e2, e3, e4, e5, e6, e7⟩ := idx_facts t
  funext j
  show blockVal (F := Ideal) (iblk m c 0 t) (iblk m c 1 t) (iblk m c 2 t) j
    = Cert.Codebook.G (m ((c : Thread nD τ).loc main_arg0)) (m ((c : Thread nD τ).loc main_arg1)) (((cfg0.win 3).blk t).view.emb j)
  refine point_eq (m ((c : Thread nD τ).loc main_arg0)) (m ((c : Thread nD τ).loc main_arg1))
    (iblk m c 0 t) (iblk m c 1 t) (iblk m c 2 t) (win0_3.index t (0 : Fin 2)) e7 ?_ ?_ ?_ j (((cfg0.win 3).blk t).view.emb j) ?_ ?_
  · intro r k
    show V m c main_arg0 (((cfg0.win 0).blk t).view.emb (ix2 r k)) = _
    rw [V_main_arg0]
    refine congrArg (m ((c : Thread nD τ).loc main_arg0)) (funext fun a => Fin.ext ?_)
    match a with
    | ⟨0, _⟩ => show win0_0.index t (0 : Fin 2) * 256 + 1 * r.val = win0_3.index t (0 : Fin 2) * 256 + r.val; omega
    | ⟨1, _⟩ => show win0_0.index t (1 : Fin 2) * 512 + 1 * k.val = k.val; omega
  · intro k cc
    show V m c main_v0 (((cfg0.win 1).blk t).view.emb (ix2 k cc)) = _
    have e : ((cfg0.win 1).blk t).view.emb (ix2 k cc) = ix2 k cc := funext fun a => Fin.ext (by
      match a with
      | ⟨0, _⟩ => show win0_1.index t (0 : Fin 2) * 512 + 1 * k.val = k.val; omega
      | ⟨1, _⟩ => show win0_1.index t (1 : Fin 2) * 100 + 1 * cc.val = cc.val; omega)
    rw [e]
    exact protos_at m c k cc
  · intro cc
    show V m c main_v4 (((cfg0.win 2).blk t).view.emb (ix2 (0 : Fin 1) cc)) = _
    have e : ((cfg0.win 2).blk t).view.emb (ix2 (0 : Fin 1) cc) = ix2 (0 : Fin 1) cc := funext fun a => Fin.ext (by
      match a with
      | ⟨0, _⟩ => show win0_2.index t (0 : Fin 2) * 1 + 1 * 0 = 0; omega
      | ⟨1, _⟩ => show win0_2.index t (1 : Fin 2) * 100 + 1 * cc.val = cc.val; omega)
    rw [e]
    exact norms_at m c cc
  · show win0_3.index t (0 : Fin 2) * 256 + 1 * (j 0).val = win0_3.index t (0 : Fin 2) * 256 + (j 0).val; omega
  · show win0_3.index t (1 : Fin 2) * 100 + 1 * (j 1).val = (j 1).val; omega

/-- An index of the array is in point `t`'s block iff each coordinate is in the block's range on its axis. -/
theorem mem_blk (t : Fin cfg0.N) (i : S4096x100.Idx) :
    i ∈ ((cfg0.win 3).blk t).view.set ↔ ∀ a : Fin 2, win0_3.index t a * S256x100.size a ≤ (i a).val ∧ (i a).val < win0_3.index t a * S256x100.size a + S256x100.size a := by
  show i ∈ ((View.whole main_v5).slice (win0_3.rect t)).set ↔ _
  rw [View.set_slice_whole, Rect.mem_set_unit]
  exact Iff.rfl

/-- The sixteen row blocks tile the output: row `n` lies in block `n / 256`. -/
theorem cover (i : S4096x100.Idx) :
    ∃ t : Fin cfg0.N, (cfg0.win 3).flush t = true ∧ i ∈ ((cfg0.win 3).blk t).view.set := by
  have hi0 : (i 0).val < 4096 := (i 0).isLt
  have hi1 : (i 1).val < 100 := (i 1).isLt
  obtain ⟨t, ht⟩ := idx_onto ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 100 ≤ (i 1).val ∧ (i 1).val < win0_3.index t (1 : Fin 2) * 100 + 100; omega

/-- The output array after the run is the specification of the two arguments. -/
theorem final (c : Dev nD) :
    (dats m 0 c).arrAt 3 cfg0.N
      = Cert.Codebook.G (m ((c : Thread nD τ).loc main_arg0)) (m ((c : Thread nD τ).loc main_arg1)) :=
  (dats m 0 c).arrAt_eq_of_cover 3 _ (fun t _ => flushed_eq m c t) cover

/-- The kernel's run: the result array ends at the specification of the arguments, the arguments unchanged. -/
theorem run : θ_run defs (onTc (τ := τ) (main (F := Ideal))) ⟨m, fun _ => 0, ρ⟩ fun r => ∀ c : Dev nD,
      r.2.mem ((c : Thread nD τ).loc main_v5)
        = Cert.Codebook.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.ArrayValue

end
-- ==== Proof.RefValue.lean ====
/-
  The reference's last stage, as one function of its two arguments, is the specification.
-/
import proofs.«139967_j76836964926347_1_alg».proof.Proof.Gen.ReferenceIdeal.Read
import proofs.«139967_j76836964926347_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Idealize.SL.Sem
open scoped BigOperators

/-- Row `n` of the samples. -/
abbrev xr (X : (⟨S4096x512, .f32⟩ : BufTy).Contents (Elt Ideal)) (n : Fin 4096) : Fin 512 → EReal :=
  fun k => X (ix2 n k)

/-- The prototypes with the leading unit axis dropped. -/
abbrev gp (P : (⟨S1x512x100, .f32⟩ : BufTy).Contents (Elt Ideal)) : Fin 512 → Fin 100 → EReal :=
  fun k c => P (ix3 (0 : Fin 1) k c)

/-- One term of the L1 distance: the absolute difference of a sample coordinate and a prototype coordinate. -/
theorem v4_at (X : (⟨S4096x512, .f32⟩ : BufTy).Contents (Elt Ideal)) (P : (⟨S1x512x100, .f32⟩ : BufTy).Contents (Elt Ideal))
    (n : Fin 4096) (k : Fin 512) (c : Fin 100) :
    val_main_v4 (F := Ideal) X P (ix3 n k c) = Cert.Codebook.absDiff (xr X n k) (gp P k c) := by
  rw [val_main_v4_apply, val_main_v3_apply, val_main_v1_apply, val_main_v0_apply, val_main_v2_apply]
  have e1 : idx_main_v0 (idx_main_v1 (ix3 n k c)) = ix2 n k :=
    funext fun a => Fin.ext (by match a with | ⟨0, _⟩ => rfl | ⟨1, _⟩ => rfl)
  have e2 : idx_main_v2 (ix3 n k c) = ix3 (0 : Fin 1) k c :=
    funext fun a => Fin.ext (by match a with | ⟨0, _⟩ => rfl | ⟨1, _⟩ => rfl | ⟨2, _⟩ => rfl)
  rw [e1, e2, Ideal.hostAbsf_def, Ideal.absf_def, Ideal.subf_def]
  rfl

/-- The sum over the 512 coordinates, started from zero, is the L1 distance of row `n` to class `c`. -/
theorem v5_at (X : (⟨S4096x512, .f32⟩ : BufTy).Contents (Elt Ideal)) (P : (⟨S1x512x100, .f32⟩ : BufTy).Contents (Elt Ideal))
    (n : Fin 4096) (c : Fin 100) :
    val_main_v5 (F := Ideal) X P (ix2 n c) = Cert.Codebook.l1 (xr X n) (gp P) c := by
  rw [val_main_v5_apply, val_main_cst_apply, Ideal.ofBits_def, Ideal.ofBits_zero_f32, zero_add]
  unfold Cert.Codebook.l1
  refine Finset.sum_congr rfl fun k _ => ?_
  have e : idx_main_v5 (ix2 n c) k = ix3 n k c :=
    funext fun a => Fin.ext (by match a with | ⟨0, _⟩ => rfl | ⟨1, _⟩ => rfl | ⟨2, _⟩ => rfl)
  rw [e, v4_at]

/-- Its negation. -/
theorem v6_at (X : (⟨S4096x512, .f32⟩ : BufTy).Contents (Elt Ideal)) (P : (⟨S1x512x100, .f32⟩ : BufTy).Contents (Elt Ideal))
    (n : Fin 4096) (c : Fin 100) :
    val_main_v6 (F := Ideal) X P (ix2 n c) = -(Cert.Codebook.l1 (xr X n) (gp P) c) := by
  rw [val_main_v6_apply, v5_at, Ideal.hostNegf_def, Ideal.negf_def]

/-- The shape fact that names the inserted class coordinate of a row reduction. -/
theorem hR : S4096x100.Reduces [(1 : Fin S4096x100.rank)] S4096 := by decide

/-- Row index `n` with class coordinate `k` inserted is the index `(n, k)`. -/
theorem lift_row (n : Fin 4096) (k : Fin 100) : hR.lift (ix1 n) k = ix2 n k :=
  funext fun a => Fin.ext (by match a with | ⟨0, _⟩ => rfl | ⟨1, _⟩ => rfl)

/-- A maximum-reduction over the classes, started from the word of −∞, is the row maximum. -/
theorem rowmax_reduce (y : (⟨S4096x100, .f32⟩ : BufTy).Contents (Elt Ideal)) (init : (⟨S_, .f32⟩ : BufTy).Contents (Elt Ideal))
    (hinit : ∀ i, init i = Cert.Codebook.negInf) (n : Fin 4096) :
    Host.reduce (FloatOps.maximumf (F := Ideal) (φ := .f32)) y init reducesTo_S4096x100_S4096_d1 h_S_ (ix1 n)
      = Cert.Codebook.rowMax (fun c => y (ix2 n c)) := by
  refine (Host.reduce_eq_fold_single _ y init reducesTo_S4096x100_S4096_d1 hR h_S_ (ix1 n)).trans ?_
  rw [hinit]
  unfold Cert.Codebook.rowMax
  refine Finset.fold_congr fun k _ => ?_
  exact congrArg y (lift_row n k)

/-- The row maximum of the negated L1 distances. -/
theorem v7_at (X : (⟨S4096x512, .f32⟩ : BufTy).Contents (Elt Ideal)) (P : (⟨S1x512x100, .f32⟩ : BufTy).Contents (Elt Ideal))
    (n : Fin 4096) :
    val_main_v7 (F := Ideal) X P (ix1 n) = Cert.Codebook.rowMax (fun c => -(Cert.Codebook.l1 (xr X n) (gp P) c)) := by
  unfold val_main_v7
  refine (rowmax_reduce _ _ (fun i => rfl) n).trans ?_
  exact congrArg Cert.Codebook.rowMax (funext fun c => v6_at X P n c)

/-- The negated L1 distances of row `n`. -/
abbrev nl (X : (⟨S4096x512, .f32⟩ : BufTy).Contents (Elt Ideal)) (P : (⟨S1x512x100, .f32⟩ : BufTy).Contents (Elt Ideal))
    (n : Fin 4096) : Fin 100 → EReal := fun c => -(Cert.Codebook.l1 (xr X n) (gp P) c)

/-- The same maximum guarded from below by −∞. -/
theorem v9_at (X : (⟨S4096x512, .f32⟩ : BufTy).Contents (Elt Ideal)) (P : (⟨S1x512x100, .f32⟩ : BufTy).Contents (Elt Ideal))
    (n : Fin 4096) :
    val_main_v9 (F := Ideal) X P (ix1 n) = max Cert.Codebook.negInf (Cert.Codebook.rowMax (nl X P n)) := by
  rw [val_main_v9_apply, val_main_v8_apply, val_main_cst_1_apply, v7_at, Ideal.maximumf_def, Ideal.ofBits_def]

/-- The guarded maximum, repeated along the classes. -/
theorem v11_at (X : (⟨S4096x512, .f32⟩ : BufTy).Contents (Elt Ideal)) (P : (⟨S1x512x100, .f32⟩ : BufTy).Contents (Elt Ideal))
    (n : Fin 4096) (c : Fin 100) :
    val_main_v11 (F := Ideal) X P (ix2 n c) = max Cert.Codebook.negInf (Cert.Codebook.rowMax (nl X P n)) := by
  rw [val_main_v11_apply, val_main_v10_apply]
  have e : idx_main_v10 (idx_main_v11 (ix2 n c)) = ix1 n :=
    funext fun a => Fin.ext (by match a with | ⟨0, _⟩ => rfl)
  rw [e, v9_at]

/-- The shifted exponential of the negated L1 distance. -/
theorem v13_at (X : (⟨S4096x512, .f32⟩ : BufTy).Contents (Elt Ideal)) (P : (⟨S1x512x100, .f32⟩ : BufTy).Contents (Elt Ideal))
    (n : Fin 4096) (c : Fin 100) :
    val_main_v13 (F := Ideal) X P (ix2 n c)
      = Ideal.exp (nl X P n c - max Cert.Codebook.negInf (Cert.Codebook.rowMax (nl X P n))) := by
  rw [val_main_v13_apply, val_main_v12_apply, v6_at, v11_at, Ideal.hostUnary_exp_def, Ideal.subf_def]

/-- The row's sum of shifted exponentials, started from zero. -/
theorem v14_at (X : (⟨S4096x512, .f32⟩ : BufTy).Contents (Elt Ideal)) (P : (⟨S1x512x100, .f32⟩ : BufTy).Contents (Elt Ideal))
    (n : Fin 4096) :
    val_main_v14 (F := Ideal) X P (ix1 n)
      = ∑ c' : Fin 100, Ideal.exp (nl X P n c' - max Cert.Codebook.negInf (Cert.Codebook.rowMax (nl X P n))) := by
  rw [val_main_v14_apply, val_main_cst_2_apply, Ideal.ofBits_def, Ideal.ofBits_zero_f32, zero_add]
  refine Finset.sum_congr rfl fun k _ => ?_
  have e : idx_main_v14 (ix1 n) k = ix2 n k :=
    funext fun a => Fin.ext (by match a with | ⟨0, _⟩ => rfl | ⟨1, _⟩ => rfl)
  rw [e, v13_at]

/-- The softmax of the negated L1 distances. -/
theorem v17_at (X : (⟨S4096x512, .f32⟩ : BufTy).Contents (Elt Ideal)) (P : (⟨S1x512x100, .f32⟩ : BufTy).Contents (Elt Ideal))
    (n : Fin 4096) (c : Fin 100) :
    val_main_v17 (F := Ideal) X P (ix2 n c) = Cert.Codebook.softmax (nl X P n) c := by
  rw [val_main_v17_apply, val_main_v16_apply, val_main_v15_apply]
  have e : idx_main_v15 (idx_main_v16 (ix2 n c)) = ix1 n :=
    funext fun a => Fin.ext (by match a with | ⟨0, _⟩ => rfl)
  rw [e, v13_at, v14_at, Ideal.hostDivf_def]
  rfl

/-- The prototypes as a 512 × 100 matrix: entry `(k, c)` is entry `(0, k, c)`, since `(k·100 + c) / 100 = k` and `(k·100 + c) mod 100 = c`. -/
theorem v18_at (P : (⟨S1x512x100, .f32⟩ : BufTy).Contents (Elt Ideal)) (k : Fin 512) (c : Fin 100) :
    val_main_v18 (F := Ideal) P (ix2 k c) = gp P k c := by
  rw [val_main_v18_apply]
  have e : idx_main_v18 (ix2 k c) = ix3 (0 : Fin 1) k c :=
    funext fun a => Fin.ext (by
      match a with
      | ⟨0, _⟩ => rfl
      | ⟨1, _⟩ => show (k.val * 100 + c.val) / 100 % 512 = k.val; have := k.isLt; have := c.isLt; omega
      | ⟨2, _⟩ => show (k.val * 100 + c.val) % 100 = c.val; have := c.isLt; omega)
  rw [e]

/-- The inner product of row `n` with prototype column `c`. -/
theorem v19_at (X : (⟨S4096x512, .f32⟩ : BufTy).Contents (Elt Ideal)) (P : (⟨S1x512x100, .f32⟩ : BufTy).Contents (Elt Ideal))
    (n : Fin 4096) (c : Fin 100) :
    val_main_v19 (F := Ideal) X P (ix2 n c) = ∑ k : Fin 512, xr X n k * gp P k c := by
  rw [val_main_v19_apply]
  refine Finset.sum_congr rfl fun k _ => ?_
  have el : lidx_main_v19 (ix2 n c) k = ix2 n k :=
    funext fun a => Fin.ext (by match a with | ⟨0, _⟩ => rfl | ⟨1, _⟩ => rfl)
  have er : ridx_main_v19 (ix2 n c) k = ix2 k c :=
    funext fun a => Fin.ext (by match a with | ⟨0, _⟩ => rfl | ⟨1, _⟩ => rfl)
  rw [el, er, v18_at]

/-- The squared norm of row `n`. -/
theorem v21_at (X : (⟨S4096x512, .f32⟩ : BufTy).Contents (Elt Ideal)) (n : Fin 4096) :
    val_main_v21 (F := Ideal) X (ix1 n) = ∑ k : Fin 512, xr X n k * xr X n k := by
  rw [val_main_v21_apply, val_main_cst_3_apply, Ideal.ofBits_def, Ideal.ofBits_zero_f32, zero_add]
  refine Finset.sum_congr rfl fun k _ => ?_
  have e : idx_main_v21 (ix1 n) k = ix2 n k :=
    funext fun a => Fin.ext (by match a with | ⟨0, _⟩ => rfl | ⟨1, _⟩ => rfl)
  rw [e, val_main_v20_apply, Ideal.mulf_def]

/-- The squared norm of prototype column `c`. -/
theorem v25_at (P : (⟨S1x512x100, .f32⟩ : BufTy).Contents (Elt Ideal)) (c : Fin 100) :
    val_main_v25 (F := Ideal) P (ix1 c) = ∑ k : Fin 512, gp P k c * gp P k c := by
  rw [val_main_v25_apply, val_main_cst_4_apply, Ideal.ofBits_def, Ideal.ofBits_zero_f32, zero_add]
  refine Finset.sum_congr rfl fun k _ => ?_
  have e : idx_main_v25 (ix1 c) k = ix2 k c :=
    funext fun a => Fin.ext (by match a with | ⟨0, _⟩ => rfl | ⟨1, _⟩ => rfl)
  rw [e, val_main_v24_apply, Ideal.mulf_def, v18_at]

/-- The norm of row `n`, repeated along the classes. -/
theorem v28_at (X : (⟨S4096x512, .f32⟩ : BufTy).Contents (Elt Ideal)) (n : Fin 4096) (c : Fin 100) :
    val_main_v28 (F := Ideal) X (ix2 n c) = Ideal.sqrt (∑ k : Fin 512, xr X n k * xr X n k) := by
  rw [val_main_v28_apply, val_main_v23_apply, val_main_v22_apply]
  have e : idx_main_v22 (idx_main_v28 (ix2 n c)) = ix1 n :=
    funext fun a => Fin.ext (by match a with | ⟨0, _⟩ => rfl)
  rw [e, v21_at, Ideal.hostUnary_sqrt_def]

/-- The norm of prototype column `c`, repeated along the rows. -/
theorem v29_at (P : (⟨S1x512x100, .f32⟩ : BufTy).Contents (Elt Ideal)) (n : Fin 4096) (c : Fin 100) :
    val_main_v29 (F := Ideal) P (ix2 n c) = Cert.Codebook.colNorm (gp P) c := by
  rw [val_main_v29_apply, val_main_v27_apply, val_main_v26_apply]
  have e : idx_main_v26 (idx_main_v29 (ix2 n c)) = ix1 c :=
    funext fun a => Fin.ext (by match a with | ⟨0, _⟩ => rfl)
  rw [e, v25_at, Ideal.hostUnary_sqrt_def]
  rfl

/-- The inner product over the clamped product of norms: the clamped cosine similarity. -/
theorem v33_at (X : (⟨S4096x512, .f32⟩ : BufTy).Contents (Elt Ideal)) (P : (⟨S1x512x100, .f32⟩ : BufTy).Contents (Elt Ideal))
    (n : Fin 4096) (c : Fin 100) :
    val_main_v33 (F := Ideal) X P (ix2 n c)
      = Cert.Codebook.cosSim (xr X n) (gp P) (Cert.Codebook.colNorm (gp P)) c := by
  rw [val_main_v33_apply, val_main_v32_apply, val_main_v30_apply, val_main_v31_apply, val_main_cst_5_apply,
    v19_at, v28_at, v29_at, Ideal.hostDivf_def, Ideal.maximumf_def, Ideal.mulf_def, Ideal.ofBits_def]
  rfl

/-- The clamped cosine similarities of row `n`. -/
abbrev cs (X : (⟨S4096x512, .f32⟩ : BufTy).Contents (Elt Ideal)) (P : (⟨S1x512x100, .f32⟩ : BufTy).Contents (Elt Ideal))
    (n : Fin 4096) : Fin 100 → EReal :=
  Cert.Codebook.cosSim (xr X n) (gp P) (Cert.Codebook.colNorm (gp P))

/-- The row maximum of the similarities (the factor of the score). -/
theorem v34_at (X : (⟨S4096x512, .f32⟩ : BufTy).Contents (Elt Ideal)) (P : (⟨S1x512x100, .f32⟩ : BufTy).Contents (Elt Ideal))
    (n : Fin 4096) :
    val_main_v34 (F := Ideal) X P (ix1 n) = Cert.Codebook.rowMax (cs X P n) := by
  unfold val_main_v34
  refine (rowmax_reduce _ _ (fun i => rfl) n).trans ?_
  exact congrArg Cert.Codebook.rowMax (funext fun c => v33_at X P n c)

/-- The row maximum of the similarities (the shift of their softmax). -/
theorem v36_at (X : (⟨S4096x512, .f32⟩ : BufTy).Contents (Elt Ideal)) (P : (⟨S1x512x100, .f32⟩ : BufTy).Contents (Elt Ideal))
    (n : Fin 4096) :
    val_main_v36 (F := Ideal) X P (ix1 n) = Cert.Codebook.rowMax (cs X P n) := by
  unfold val_main_v36
  refine (rowmax_reduce _ _ (fun i => rfl) n).trans ?_
  exact congrArg Cert.Codebook.rowMax (funext fun c => v33_at X P n c)

/-- That maximum guarded from below by −∞, repeated along the classes. -/
theorem v40_at (X : (⟨S4096x512, .f32⟩ : BufTy).Contents (Elt Ideal)) (P : (⟨S1x512x100, .f32⟩ : BufTy).Contents (Elt Ideal))
    (n : Fin 4096) (c : Fin 100) :
    val_main_v40 (F := Ideal) X P (ix2 n c) = max Cert.Codebook.negInf (Cert.Codebook.rowMax (cs X P n)) := by
  rw [val_main_v40_apply, val_main_v39_apply]
  have e : idx_main_v39 (idx_main_v40 (ix2 n c)) = ix1 n :=
    funext fun a => Fin.ext (by match a with | ⟨0, _⟩ => rfl)
  rw [e, val_main_v38_apply, val_main_v37_apply, val_main_cst_8_apply, v36_at, Ideal.maximumf_def, Ideal.ofBits_def]

/-- The shifted exponential of the similarity. -/
theorem v42_at (X : (⟨S4096x512, .f32⟩ : BufTy).Contents (Elt Ideal)) (P : (⟨S1x512x100, .f32⟩ : BufTy).Contents (Elt Ideal))
    (n : Fin 4096) (c : Fin 100) :
    val_main_v42 (F := Ideal) X P (ix2 n c)
      = Ideal.exp (cs X P n c - max Cert.Codebook.negInf (Cert.Codebook.rowMax (cs X P n))) := by
  rw [val_main_v42_apply, val_main_v41_apply, v33_at, v40_at, Ideal.hostUnary_exp_def, Ideal.subf_def]

/-- The row's sum of shifted exponentials, started from zero. -/
theorem v43_at (X : (⟨S4096x512, .f32⟩ : BufTy).Contents (Elt Ideal)) (P : (⟨S1x512x100, .f32⟩ : BufTy).Contents (Elt Ideal))
    (n : Fin 4096) :
    val_main_v43 (F := Ideal) X P (ix1 n)
      = ∑ c' : Fin 100, Ideal.exp (cs X P n c' - max Cert.Codebook.negInf (Cert.Codebook.rowMax (cs X P n))) := by
  rw [val_main_v43_apply, val_main_cst_9_apply, Ideal.ofBits_def, Ideal.ofBits_zero_f32, zero_add]
  refine Finset.sum_congr rfl fun k _ => ?_
  have e : idx_main_v43 (ix1 n) k = ix2 n k :=
    funext fun a => Fin.ext (by match a with | ⟨0, _⟩ => rfl | ⟨1, _⟩ => rfl)
  rw [e, v42_at]

/-- The softmax of the similarities. -/
theorem v46_at (X : (⟨S4096x512, .f32⟩ : BufTy).Contents (Elt Ideal)) (P : (⟨S1x512x100, .f32⟩ : BufTy).Contents (Elt Ideal))
    (n : Fin 4096) (c : Fin 100) :
    val_main_v46 (F := Ideal) X P (ix2 n c) = Cert.Codebook.softmax (cs X P n) c := by
  rw [val_main_v46_apply, val_main_v45_apply, val_main_v44_apply]
  have e : idx_main_v44 (idx_main_v45 (ix2 n c)) = ix1 n :=
    funext fun a => Fin.ext (by match a with | ⟨0, _⟩ => rfl)
  rw [e, v42_at, v43_at, Ideal.hostDivf_def]
  rfl

/-- The row maximum of the similarities, repeated along the classes. -/
theorem v47_at (X : (⟨S4096x512, .f32⟩ : BufTy).Contents (Elt Ideal)) (P : (⟨S1x512x100, .f32⟩ : BufTy).Contents (Elt Ideal))
    (n : Fin 4096) (c : Fin 100) :
    val_main_v47 (F := Ideal) X P (ix2 n c) = Cert.Codebook.rowMax (cs X P n) := by
  rw [val_main_v47_apply, val_main_v35_apply]
  have e : idx_main_v35 (idx_main_v47 (ix2 n c)) = ix1 n :=
    funext fun a => Fin.ext (by match a with | ⟨0, _⟩ => rfl)
  rw [e, v34_at]

/-- The reference's result stage, at the ideal instance, is the specification of its two arguments. -/
theorem ref_eq (X : (⟨S4096x512, .f32⟩ : BufTy).Contents (Elt Ideal)) (P : (⟨S1x512x100, .f32⟩ : BufTy).Contents (Elt Ideal)) :
    val_main_v49 (F := Ideal) X P = Cert.Codebook.G X P := by
  funext i
  obtain ⟨n, c, rfl⟩ : ∃ (n : Fin 4096) (c : Fin 100), i = ix2 n c := ⟨i 0, i 1, eq_ix2 i⟩
  rw [val_main_v49_apply, val_main_v48_apply, v47_at, v46_at, v17_at, Ideal.mulf_def, Ideal.mulf_def]
  rfl

end Cert.ReferenceIdeal.RefValue

end
-- ==== Proof.lean ====
/-
  A row-blocked classifier against its whole-array reference, over the extended reals.

  For samples `X : [4096, 512]` and class prototypes `P : [1, 512, 100]` both programs compute, for every
  row `n` and class `c`,

      out (n, c) = (max_c cs n c) · softmax (cs n) c · softmax (−ℓ¹ n) c,

  with `cs n c = (∑ₖ X n k · P k c) / max (√(∑ₖ X n k²) · √(∑ₖ P k c²)) ε` the clamped cosine similarity and
  `ℓ¹ n c = ∑ₖ |X n k − P k c|` the L1 distance (Proof/Spec.lean states this function, `Codebook.G`).

  The kernel works on sixteen blocks of 256 rows.  At each block it loads the rows, the prototypes and the
  prototypes' column norms (computed once on the host), forms the similarities by one matrix product of the
  blocks (narrowed to a shorter float format first, which changes nothing at exact arithmetic), and accumulates
  the L1 distances in a scratch array it zeroes at every block: four additions, one per chunk of 128 of the
  512 coordinates.  Each row of the result depends on its own row of the samples only, so block `t`, row `r`
  is the specification at row `256 t + r`; the chunked accumulation is the whole sum because a finite sum over
  512 coordinates is the sum of its four consecutive chunks of 128 (addition on the extended reals is
  commutative and associative, with no side condition), and the kernel's `0 − ℓ¹` is the reference's `−ℓ¹`.
  No step needs the inputs to be finite, so the precondition is never opened.

  The modules: Spec (the function and the two laws), KernelTerm (a block's stored value as one term of its
  loaded blocks), Piece (the body's run leaves that term), Cosine / Distance / BlockValue (that term at an
  entry is the specification's score of the row), ArrayValue (the host prefix read, blocks to the array, the
  kernel's run), RefValue (the reference's last stage is the specification); assembled below.
-/
import proofs.«139967_j76836964926347_1_alg».proof.Defs
import proofs.«139967_j76836964926347_1_alg».proof.Proof.Gen.Kernel
import proofs.«139967_j76836964926347_1_alg».proof.Proof.Gen.Kernel.Skeleton
import proofs.«139967_j76836964926347_1_alg».proof.Proof.Gen.Kernel.Launch
import proofs.«139967_j76836964926347_1_alg».proof.Proof.Gen.Kernel.Points
import proofs.«139967_j76836964926347_1_alg».proof.Proof.Gen.Kernel.Frame
import proofs.«139967_j76836964926347_1_alg».proof.Proof.Gen.KernelIdeal
import proofs.«139967_j76836964926347_1_alg».proof.Proof.Gen.KernelIdeal.Skeleton
import proofs.«139967_j76836964926347_1_alg».proof.Proof.Gen.KernelIdeal.Launch
import proofs.«139967_j76836964926347_1_alg».proof.Proof.Gen.KernelIdeal.Points
import proofs.«139967_j76836964926347_1_alg».proof.Proof.Gen.KernelIdeal.Frame
import proofs.«139967_j76836964926347_1_alg».proof.Proof.Gen.ReferenceIdeal
import proofs.«139967_j76836964926347_1_alg».proof.Proof.Gen.Pre_finite_inputs
import proofs.«139967_j76836964926347_1_alg».proof.Proof.Gen.KernelIdeal.Value
import proofs.«139967_j76836964926347_1_alg».proof.Proof.Gen.ReferenceIdeal.Run
import proofs.«139967_j76836964926347_1_alg».proof.Proof.Gen.ReferenceIdeal.Read
import proofs.«139967_j76836964926347_1_alg».proof.Proof.ArrayValue
import proofs.«139967_j76836964926347_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the two arguments both programs end with the specification of those arguments in
    their result arrays. -/
theorem algebraic : Cert.algebraic_KernelIdeal_ReferenceIdeal := by
  intro m ρ m' ρ' _ hagree
  refine ⟨fun c => Cert.Codebook.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
